-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S64x2048x64 : Shape := ⟨3, ![64, 2048, 64]⟩
abbrev S4x2048x2048 : Shape := ⟨3, ![4, 2048, 2048]⟩
abbrev S1x2048x64 : Shape := ⟨3, ![1, 2048, 64]⟩
abbrev S1x1024x64 : Shape := ⟨3, ![1, 1024, 64]⟩
abbrev S1x2048x1024 : Shape := ⟨3, ![1, 2048, 1024]⟩
abbrev S2048x64 : Shape := ⟨2, ![2048, 64]⟩
abbrev S1024x64 : Shape := ⟨2, ![1024, 64]⟩
abbrev S64x1024 : Shape := ⟨2, ![64, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x2048x2048, .i1⟩
  | .hbm, ⟨8, _⟩ => ⟨S4x2048x2048, .i32⟩
  | .hbm, ⟨9, _⟩ => ⟨S64x2048x64, .f32⟩
  | .hbm, ⟨10, _⟩ => ⟨S4x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x2048x1024, .i32⟩
  | .local _ .vmem, ⟨7, _⟩ => ⟨S1x2048x1024, .i32⟩
  | .local _ .vmem, ⟨8, _⟩ => ⟨S1x2048x64, .f32⟩
  | .local _ .vmem, ⟨9, _⟩ => ⟨S1x2048x64, .f32⟩
  | .local _ .vmem, ⟨10, _⟩ => ⟨S2048x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 1, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_20 : BitVec 32 := 0#32
  let v30 : BitVec 1 := Scalar.cmpi .ne v29 c0_i32_20
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x16x2048x64_S64x2048x64 : S4x16x2048x64.ShapeCasts S64x2048x64
  shapeCasts_S4x1x2048x2048_S4x2048x2048 : S4x1x2048x2048.ShapeCasts S4x2048x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x64_S2048 : S2048x64.Reduces [1] S2048
  shapeCasts_S2048_S2048x1 : S2048.ShapeCasts S2048x1
  broadcasts_S2048x1_S2048x64 : S2048x1.Broadcasts S2048x64
  shapeCasts_S2048x64_S1x2048x64 : S2048x64.ShapeCasts S1x2048x64
  shapeCasts_S64x2048x64_S4x16x2048x64 : S64x2048x64.ShapeCasts S4x16x2048x64
  dot_S2048x64_S64x1024_S2048x1024_1_0_0_1_n_n_wf : DotDims.WF S2048x64 S64x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x2048x64.size a
  hwx0_1 : ∀ i : grid0.Coords, EltTy.bits .f32 = 32 ∨ (Rect.block (s := S64x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x2048x64.size a
  hwx0_2 : ∀ i : grid0.Coords, EltTy.bits .f32 = 32 ∨ (Rect.block (s := S64x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x2048x2048.size a
  hwx0_3 : ∀ i : grid0.Coords, EltTy.bits .i32 = 32 ∨ (Rect.block (s := S4x2048x2048) S1x2048x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S64x2048x64.size a
  hwx0_4 : ∀ i : grid0.Coords, EltTy.bits .f32 = 32 ∨ (Rect.block (s := S64x2048x64) S1x2048x64.size (cc0_transform_4 i) (hinb0_4 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S4x16x2048x2048, .i1⟩
  | .hbm, ⟨11, _⟩ => ⟨S4x16x2048x2048, .f32⟩
  | .hbm, ⟨12, _⟩ => ⟨S4x16x2048x2048, .f32⟩
  | .hbm, ⟨13, _⟩ => ⟨S4x16x2048x64, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x64, .f32⟩
  | .hbm, ⟨21, _⟩ => ⟨S4x16x2048x64, .f32⟩
  | .hbm, ⟨22, _⟩ => ⟨S4x16x2048x64, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x1, .f32⟩
  | .hbm, ⟨27, _⟩ => ⟨S4x16x2048x64, .f32⟩
  | .hbm, ⟨28, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v6 : Ref sig .tc := ⟨.hbm, 28, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x64_S4x16x2048_d3 : S4x16x2048x64.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x64_0_1_2_3 : S4x16x2048x1.BroadcastsInDim S4x16x2048x64 (![0, 1, 2, 3] : Fin 4 → Fin S4x16x2048x64.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.Spec.lean ====
/-
  Masked-score attention followed by a row-wise log-softmax, as one function of the four argument arrays,
  and the three facts about extended reals that join the two programs:
  • dividing by the square root of 64 is multiplying by 1/8 (on every extended real, the infinities included);
  • a sum over 2048 terms is the sum of its first 1024 terms plus the sum of its last 1024 terms;
  • a mask bit widened to a word and compared with zero is the bit.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The value a masked score is filled with: the float −1e9. -/
abbrev fill : EReal := Ideal.ofBits .f32 0xCE6E6B28#32

/-- The scale of a score, the float 0.125. -/
abbrev eighth : EReal := Ideal.ofBits .f32 0x3E000000#32

/-- The float −∞, from which a row's maximum is folded. -/
abbrev negInf : EReal := Ideal.ofBits .f32 0xFF800000#32

/-- One score from its mask bit and the query–key dot product: the fill where the bit is set, else the scaled product. -/
def score (bit : BitVec 1) (dot : EReal) : EReal := Scalar.select bit fill (dot * eighth)

/-- The maximum a row of 64 is shifted by. -/
def rowMax (r : Fin 64 → EReal) : EReal := max negInf ((Finset.univ : Finset (Fin 64)).fold max negInf r)

/-- The log-softmax of a row of 64, at entry d: (r d − max) − log Σ exp (r e − max). -/
def lsm (r : Fin 64 → EReal) (d : Fin 64) : EReal :=
  (r d - rowMax r) - Ideal.log (∑ e : Fin 64, Ideal.exp (r e - rowMax r))

/-- One term of the second product: the score of (query q, key k) times the value row k at column d. -/
def term (x0 x1 x2 : (⟨4, ![4, 16, 2048, 64]⟩ : Shape).Idx → EReal) (x3 : (⟨4, ![4, 1, 2048, 2048]⟩ : Shape).Idx → BitVec 1)
    (b : Fin 4) (h : Fin 16) (q : Fin 2048) (d : Fin 64) (k : Fin 2048) : EReal :=
  score (x3 (ix4 b (0 : Fin 1) q k)) (∑ e : Fin 64, x0 (ix4 b h q e) * x1 (ix4 b h k e)) * x2 (ix4 b h k d)

/-- The masked scores times the values, before the softmax: entry (b, h, q, d). -/
def att (x0 x1 x2 : (⟨4, ![4, 16, 2048, 64]⟩ : Shape).Idx → EReal) (x3 : (⟨4, ![4, 1, 2048, 2048]⟩ : Shape).Idx → BitVec 1)
    (b : Fin 4) (h : Fin 16) (q : Fin 2048) (d : Fin 64) : EReal :=
  ∑ k : Fin 2048, term x0 x1 x2 x3 b h q d k

/-- The result array: the log-softmax over the last axis of the masked scores times the values. -/
def G (x0 x1 x2 : (⟨4, ![4, 16, 2048, 64]⟩ : Shape).Idx → EReal) (x3 : (⟨4, ![4, 1, 2048, 2048]⟩ : Shape).Idx → BitVec 1) :
    (⟨4, ![4, 16, 2048, 64]⟩ : Shape).Idx → EReal :=
  fun i => lsm (fun d => att x0 x1 x2 x3 (i 0) (i 1) (i 2) d) (i 3)

/-! ## The constants -/

/-- The float 64.0 denotes the real 64. -/
theorem ofBits_64 : Ideal.ofBits .f32 0x42800000#32 = ((64 : ℝ) : EReal) := by
  simp [Ideal.ofBits, Ideal.ieee, -EReal.coe_mul]; norm_num

/-- The float 0.125 denotes the real 1/8. -/
theorem eighth_eq : eighth = ((1 / 8 : ℝ) : EReal) := by
  simp [eighth, Ideal.ofBits, Ideal.ieee, -EReal.coe_mul]; norm_num

/-- The float +0.0 denotes 0. -/
theorem ofBits_zero : Ideal.ofBits .f32 0x00000000#32 = 0 := Ideal.ofBits_zero_f32

/-- The square root of the real 64 is 8. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]
    exact Real.sqrt_sq (by norm_num)
  rw [h]

/-- Dividing by the square root of 64 is multiplying by 0.125, on every extended real. -/
theorem div_sqrt_64 (x : EReal) : Ideal.div x (Ideal.sqrt (Ideal.ofBits .f32 0x42800000#32)) = x * eighth := by
  rw [ofBits_64, sqrt_64, Ideal.div_coe (by norm_num : (8 : ℝ) ≠ 0), eighth_eq]

/-! ## The sum over the keys, in two halves -/

/-- A sum over 2048 terms is the sum over the first 1024 plus the sum over the last 1024. -/
theorem sum_halves {M : Type*} [AddCommMonoid M] (f : Fin 2048 → M) :
    ∑ k : Fin 2048, f k
      = (∑ k : Fin 1024, f ⟨k.val, by have := k.isLt; omega⟩) + ∑ k : Fin 1024, f ⟨1024 + k.val, by have := k.isLt; omega⟩ := by
  exact Fin.sum_univ_add (a := 1024) (b := 1024) (f := fun k : Fin (1024 + 1024) => f ⟨k.val, k.isLt⟩)

/-! ## The mask bit -/

/-- A mask bit widened to a 32-bit word is nonzero exactly when the bit is set. -/
theorem ne_zero_setWidth (b : BitVec 1) : Scalar.cmpi .ne (b.setWidth 32) 0#32 = b := by
  revert b; decide

end Cert.Spec

end
-- ==== Proof.RefG.lean ====
/-
  The reference's result, index by index, is the specification G.
  The masked score at (b, h, q, k) is the fill where the mask bit is set and the scaled dot product elsewhere;
  the second product at (b, h, q, d) is the sum of the scores times the value rows; the row maximum is the fold of
  max from −∞ over the 64 entries of a row, and the result is the row minus its maximum minus the logarithm of the
  sum of the exponentials of those differences.
-/
import proofs.«151982_j18391049961538_1_alg».proof.Proof.RefRead
import proofs.«151982_j18391049961538_1_alg».proof.Proof.Spec
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.RefG

open Cert.ReferenceIdeal Cert.ReferenceIdeal.RefRead Idealize.ShloMosaic Idealize.ShloMosaic.ValueIdx

/-- The masked score at (b, h, q, k). -/
theorem v4_at (x0 x1 : (⟨S4x16x2048x64, .f32⟩ : BufTy).Contents (Elt Ideal)) (x3 : (⟨S4x1x2048x2048, .i1⟩ : BufTy).Contents (Elt Ideal))
    (b : Fin 4) (h : Fin 16) (q k : Fin 2048) :
    val_main_v4 (F := Ideal) x0 x1 x3 (ix4 b h q k)
      = Cert.Spec.score (x3 (ix4 b (0 : Fin 1) q k)) (∑ e : Fin 64, x0 (ix4 b h q e) * x1 (ix4 b h k e)) := by
  rw [val_main_v4_apply, val_main_call0_v0_apply, val_main_call0_v1_apply, val_main_cst_0_apply, val_main_v3_apply,
    val_main_v0_apply, val_main_v2_apply, val_main_v1_apply, val_main_cst_apply]
  have e3 : idx_main_call0_v0 (ix4 b h q k) = ix4 b (0 : Fin 1) q k :=
    funext fun a => Fin.ext (by match a with | ⟨0, _⟩ => rfl | ⟨1, _⟩ => rfl | ⟨2, _⟩ => rfl | ⟨3, _⟩ => rfl)
  have el : ∀ e : Fin 64, lidx_main_v0 (ix4 b h q k) e = ix4 b h q e := fun e =>
    funext fun a => Fin.ext (by match a with | ⟨0, _⟩ => rfl | ⟨1, _⟩ => rfl | ⟨2, _⟩ => rfl | ⟨3, _⟩ => rfl)
  have er : ∀ e : Fin 64, ridx_main_v0 (ix4 b h q k) e = ix4 b h k e := fun e =>
    funext fun a => Fin.ext (by match a with | ⟨0, _⟩ => rfl | ⟨1, _⟩ => rfl | ⟨2, _⟩ => rfl | ⟨3, _⟩ => rfl)
  rw [e3]
  simp only [el, er, Ideal.hostDivf_def, Ideal.hostUnary_sqrt_def, Ideal.ofBits_def, Cert.Spec.div_sqrt_64]
  rfl

/-- The second product at (b, h, q, d) is the sum over the keys of the score times the value row. -/
theorem v5_at (x0 x1 x2 : (⟨S4x16x2048x64, .f32⟩ : BufTy).Contents (Elt Ideal)) (x3 : (⟨S4x1x2048x2048, .i1⟩ : BufTy).Contents (Elt Ideal))
    (b : Fin 4) (h : Fin 16) (q : Fin 2048) (d : Fin 64) :
    val_main_v5 (F := Ideal) x0 x1 x2 x3 (ix4 b h q d) = Cert.Spec.att x0 x1 x2 x3 b h q d := by
  rw [val_main_v5_apply]
  unfold Cert.Spec.att Cert.Spec.term
  refine Finset.sum_congr rfl fun k _ => ?_
  have el : lidx_main_v5 (ix4 b h q d) k = ix4 b h q k :=
    funext fun a => Fin.ext (by match a with | ⟨0, _⟩ => rfl | ⟨1, _⟩ => rfl | ⟨2, _⟩ => rfl | ⟨3, _⟩ => rfl)
  have er : ridx_main_v5 (ix4 b h q d) k = ix4 b h k d :=
    funext fun a => Fin.ext (by match a with | ⟨0, _⟩ => rfl | ⟨1, _⟩ => rfl | ⟨2, _⟩ => rfl | ⟨3, _⟩ => rfl)
  rw [el, er, v4_at]

/-- The reduced maximum of row (b, h, q): the fold of max from −∞ over the row's 64 entries. -/
theorem v0max_at (x0 x1 x2 : (⟨S4x16x2048x64, .f32⟩ : BufTy).Contents (Elt Ideal)) (x3 : (⟨S4x1x2048x2048, .i1⟩ : BufTy).Contents (Elt Ideal))
    (b : Fin 4) (h : Fin 16) (q : Fin 2048) :
    val_main_call1_v0 (F := Ideal) x0 x1 x2 x3 (ix3 b h q)
      = (Finset.univ : Finset (Fin 64)).fold max Cert.Spec.negInf (fun d => Cert.Spec.att x0 x1 x2 x3 b h q d) := by
  unfold val_main_call1_v0
  have hr : S4x16x2048x64.Reduces [3] S4x16x2048 := by decide
  rw [Host.reduce_eq_fold_single FloatOps.maximumf _ _ _ hr _ (ix3 b h q)]
  have hf : (val_main_v5 (F := Ideal) x0 x1 x2 x3 ∘ hr.lift (ix3 b h q)) = fun d : Fin 64 => Cert.Spec.att x0 x1 x2 x3 b h q d :=
    funext fun d => by
      have e : hr.lift (ix3 b h q) d = ix4 b h q (⟨d.val, d.isLt⟩ : Fin 64) :=
        funext fun a => Fin.ext (by match a with | ⟨0, _⟩ => rfl | ⟨1, _⟩ => rfl | ⟨2, _⟩ => rfl | ⟨3, _⟩ => rfl)
      show val_main_v5 (F := Ideal) x0 x1 x2 x3 (hr.lift (ix3 b h q) d) = _
      rw [e, v5_at]
      rfl
  exact congrArg (fun f => Finset.fold max Cert.Spec.negInf f (Finset.univ : Finset (Fin 64))) hf

/-- The maximum row (b, h, q) is shifted by: the larger of −∞ and the reduced maximum. -/
theorem v2max_at (x0 x1 x2 : (⟨S4x16x2048x64, .f32⟩ : BufTy).Contents (Elt Ideal)) (x3 : (⟨S4x1x2048x2048, .i1⟩ : BufTy).Contents (Elt Ideal))
    (b : Fin 4) (h : Fin 16) (q : Fin 2048) :
    val_main_call1_v2 (F := Ideal) x0 x1 x2 x3 (ix3 b h q)
      = Cert.Spec.rowMax (fun d => Cert.Spec.att x0 x1 x2 x3 b h q d) := by
  rw [val_main_call1_v2_apply, val_main_call1_v1_apply, val_main_call1_cst_0_apply, v0max_at]
  rfl

/-- An entry of row (b, h, q) minus the row's maximum. -/
theorem shifted_at (x0 x1 x2 : (⟨S4x16x2048x64, .f32⟩ : BufTy).Contents (Elt Ideal)) (x3 : (⟨S4x1x2048x2048, .i1⟩ : BufTy).Contents (Elt Ideal))
    (b : Fin 4) (h : Fin 16) (q : Fin 2048) (d : Fin 64) :
    val_main_call1_v5 (F := Ideal) x0 x1 x2 x3 (ix4 b h q d)
      = Cert.Spec.att x0 x1 x2 x3 b h q d - Cert.Spec.rowMax (fun d' => Cert.Spec.att x0 x1 x2 x3 b h q d') := by
  rw [val_main_call1_v5_apply, val_main_call1_v4_apply, val_main_call1_v3_apply, v5_at]
  have e : idx_main_call1_v3 (idx_main_call1_v4 (ix4 b h q d)) = ix3 b h q :=
    funext fun a => Fin.ext (by match a with | ⟨0, _⟩ => rfl | ⟨1, _⟩ => rfl | ⟨2, _⟩ => rfl)
  rw [e, v2max_at]
  rfl

/-- The sum over row (b, h, q) of the exponentials of the shifted entries. -/
theorem sumexp_at (x0 x1 x2 : (⟨S4x16x2048x64, .f32⟩ : BufTy).Contents (Elt Ideal)) (x3 : (⟨S4x1x2048x2048, .i1⟩ : BufTy).Contents (Elt Ideal))
    (b : Fin 4) (h : Fin 16) (q : Fin 2048) :
    val_main_call1_v7 (F := Ideal) x0 x1 x2 x3 (ix3 b h q)
      = ∑ e : Fin 64, Ideal.exp (Cert.Spec.att x0 x1 x2 x3 b h q e
          - Cert.Spec.rowMax (fun d' => Cert.Spec.att x0 x1 x2 x3 b h q d')) := by
  rw [val_main_call1_v7_apply, val_main_call1_cst_1_apply, Ideal.ofBits_def, Cert.Spec.ofBits_zero, zero_add]
  refine Finset.sum_congr rfl fun e _ => ?_
  have ei : idx_main_call1_v7 (ix3 b h q) e = ix4 b h q e :=
    funext fun a => Fin.ext (by match a with | ⟨0, _⟩ => rfl | ⟨1, _⟩ => rfl | ⟨2, _⟩ => rfl | ⟨3, _⟩ => rfl)
  rw [ei, val_main_call1_v6_apply, shifted_at]
  rfl

/-- The reference's result at (b, h, q, d) is the log-softmax of row (b, h, q) at entry d. -/
theorem ref_at (x0 x1 x2 : (⟨S4x16x2048x64, .f32⟩ : BufTy).Contents (Elt Ideal)) (x3 : (⟨S4x1x2048x2048, .i1⟩ : BufTy).Contents (Elt Ideal))
    (b : Fin 4) (h : Fin 16) (q : Fin 2048) (d : Fin 64) :
    val_main_v6 (F := Ideal) x0 x1 x2 x3 (ix4 b h q d)
      = Cert.Spec.lsm (fun d' => Cert.Spec.att x0 x1 x2 x3 b h q d') d := by
  rw [val_main_v6_apply, val_main_call1_v10_apply, val_main_call1_v9_apply, val_main_call1_v8_apply, shifted_at]
  have e : idx_main_call1_v8 (idx_main_call1_v10 (ix4 b h q d)) = ix3 b h q :=
    funext fun a => Fin.ext (by match a with | ⟨0, _⟩ => rfl | ⟨1, _⟩ => rfl | ⟨2, _⟩ => rfl)
  rw [e, sumexp_at]
  rfl

/-- The reference's result is the specification, as arrays. -/
theorem ref_eq_G (x0 x1 x2 : (⟨S4x16x2048x64, .f32⟩ : BufTy).Contents (Elt Ideal)) (x3 : (⟨S4x1x2048x2048, .i1⟩ : BufTy).Contents (Elt Ideal)) :
    val_main_v6 (F := Ideal) x0 x1 x2 x3 = Cert.Spec.G x0 x1 x2 x3 := by
  funext i
  exact (congrArg (val_main_v6 (F := Ideal) x0 x1 x2 x3) (eq_ix4 i)).trans (ref_at x0 x1 x2 x3 (i 0) (i 1) (i 2) (i 3))

end Cert.RefG

end
-- ==== Proof.KPieces.lean ====
/-
  What one run of the kernel body leaves behind, as values of what it loaded.
  At a first key tile the accumulator is zeroed and then holds the tile's masked scores times its values;
  at the last key tile the accumulator gains that tile's product and the output block is the row-wise
  log-softmax of the accumulator.
-/
import proofs.«151982_j18391049961538_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first key tile: the accumulator ends at the tile's product added to the zero block. -/
theorem sout_A (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x1024 .i32) (harg6 : arg6.IsWhole) (arg7 : Memref sig .tc .vmem S1x2048x64 .f32) (harg7 : arg7.IsWhole) (arg8 : Memref sig .tc .vmem S2048x64 .f32) (harg8 : arg8.IsWhole) (hc0 : cond0_0 i) (hc1 : ¬cond0_1 i)
    (x0 : Vec F S1x2048x64 .f32) (x1 : Vec F S1x1024x64 .f32) (x2 : Vec F S1x1024x64 .f32) (x3 : Vec F S1x2048x1024 .i32) :
    sout0_A_0 c i arg3 harg3 arg4 harg4 arg5 harg5 arg6 harg6 arg7 harg7 arg8 harg8 hc0 hc1 x0 x1 x2 x3 = k0_pay3 x0 x1 x3 x2 (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x64) hz2]
  simp only [View.readAt_eq_ld, harg3.read_unread, harg4.read_unread, harg5.read_unread, harg6.read_unread,
    View.ld_unit_zero (S := S1x2048x64) hz3, View.ld_unit_zero (S := S1x1024x64) hz3, View.ld_unit_zero (S := S1x2048x1024) hz3,
    View.readCov_unit_zero (S := S2048x64) _ hz2]

/-- A last key tile: the output block is the log-softmax of the accumulator after the tile's product was added to
    what the tile before left. -/
theorem out_B (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x1024 .i32) (harg6 : arg6.IsWhole) (arg7 : Memref sig .tc .vmem S1x2048x64 .f32) (harg7 : arg7.IsWhole) (arg8 : Memref sig .tc .vmem S2048x64 .f32) (harg8 : arg8.IsWhole) (hc0 : ¬cond0_0 i) (hc1 : cond0_1 i)
    (x0 : Vec F S1x2048x64 .f32) (x1 : Vec F S1x1024x64 .f32) (x2 : Vec F S1x1024x64 .f32) (x3 : Vec F S1x2048x1024 .i32) (xs0 : Vec F S2048x64 .f32) :
    out0_B_4 c i arg3 harg3 arg4 harg4 arg5 harg5 arg6 harg6 arg7 harg7 arg8 harg8 hc0 hc1 x0 x1 x2 x3 xs0 = k0_pay1 (k0_pay3 x0 x1 x3 x2 xs0) := by
  unfold out0_B_4
  rw [View.read_writes_eq_canon _ _ _ (cover0_B_4 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1x2048x64) hz3]
  simp only [View.readAt_eq_ld, harg3.read_unread, harg4.read_unread, harg5.read_unread, harg6.read_unread, harg8.read_unread,
    View.ld_unit_zero (S := S1x2048x64) hz3, View.ld_unit_zero (S := S1x1024x64) hz3, View.ld_unit_zero (S := S1x2048x1024) hz3,
    View.ld_unit_zero (S := S2048x64) hz2, View.readCov_unit_zero (S := S2048x64) _ hz2]

end Cert.KPieces

end
-- ==== Proof.KBlocks.lean ====
/-
  The blocks the kernel body is handed at a grid point, read off the arrays the region finds.
  Point t works on head t / 2 and key tile t % 2: the query block is the head's whole [2048, 64] slab, the key and
  value blocks are rows 1024·(t % 2) … of the head's slabs, the mask block is columns 1024·(t % 2) … of batch
  (t / 2) / 16's [2048, 2048] mask, and the output block is the head's whole slab.
-/
import proofs.«151982_j18391049961538_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open Idealize.ShloMosaic.StableHlo

namespace Cert.KBlocks

open Cert.KernelIdeal Cert.KernelIdeal.Gen

variable {F : FTy → Type} [FloatOps F]
variable (m : (ℓ : Loc nD τ sig) → Buf (Elt F) ℓ)

/-- The block indices of the five windows at point t, decided over the grid. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 32 ∧ win0_3.index t (1 : Fin 3) = 0 ∧ win0_3.index t (2 : Fin 3) = t.val % 2
    ∧ win0_4.index t (0 : Fin 3) = t.val / 2 ∧ win0_4.index t (1 : Fin 3) = 0 ∧ win0_4.index t (2 : Fin 3) = 0 :=
  (by decide +kernel : ∀ t : Fin grid0.N, _)

/-- The arrays the region finds, at their literal types. -/
abbrev qarr (c : Dev nD) : Vec F S64x2048x64 .f32 := V m c main_v0
abbrev karr (c : Dev nD) : Vec F S64x2048x64 .f32 := V m c main_v1
abbrev varr (c : Dev nD) : Vec F S64x2048x64 .f32 := V m c main_v2
abbrev marr (c : Dev nD) : Vec F S4x2048x2048 .i32 := V m c main_v4

/-- The blocks the body is handed at point t, at their literal types. -/
abbrev qblk (c : Dev nD) (t : Fin cfg0.N) : Vec F S1x2048x64 .f32 := iblk m c 0 t
abbrev kblk (c : Dev nD) (t : Fin cfg0.N) : Vec F S1x1024x64 .f32 := iblk m c 1 t
abbrev vblk (c : Dev nD) (t : Fin cfg0.N) : Vec F S1x1024x64 .f32 := iblk m c 2 t
abbrev mblk (c : Dev nD) (t : Fin cfg0.N) : Vec F S1x2048x1024 .i32 := iblk m c 3 t

theorem N128 : cfg0.N = 128 := N_0

/-- The query block at point t is head t / 2's slab. -/
theorem qblk_apply (c : Dev nD) (t : Fin cfg0.N) (u : Fin 1) (q : Fin 2048) (e : Fin 64) :
    qblk m c t (ix3 u q e) = qarr m c (ix3 (⟨t.val / 2, by have := t.isLt; have := N128; omega⟩ : Fin 64) q e) := by
  obtain ⟨e0, e1, e2, -⟩ := idx_facts t
  show V m c main_v0 (((cfg0.win 0).blk t).view.emb (ix3 u q e)) = V m c main_v0 _
  refine congrArg (V m c main_v0) (funext fun a => Fin.ext ?_)
  have hu : u.val = 0 := by omega
  match a with
  | ⟨0, _⟩ => show win0_0.index t (0 : Fin 3) * 1 + 1 * u.val = t.val / 2; omega
  | ⟨1, _⟩ => show win0_0.index t (1 : Fin 3) * 2048 + 1 * q.val = q.val; omega
  | ⟨2, _⟩ => show win0_0.index t (2 : Fin 3) * 64 + 1 * e.val = e.val; omega

/-- The key block at point t is rows 1024·(t % 2) … of head t / 2's slab. -/
theorem kblk_apply (c : Dev nD) (t : Fin cfg0.N) (u : Fin 1) (k : Fin 1024) (e : Fin 64) :
    kblk m c t (ix3 u k e) = karr m c (ix3 (⟨t.val / 2, by have := t.isLt; have := N128; omega⟩ : Fin 64)
      (⟨(t.val % 2) * 1024 + k.val, by have := k.isLt; have := Nat.mod_lt t.val (by decide : 2 > 0); omega⟩ : Fin 2048) e) := by
  obtain ⟨-, -, -, e0, e1, e2, -⟩ := idx_facts t
  show V m c main_v1 (((cfg0.win 1).blk t).view.emb (ix3 u k e)) = V m c main_v1 _
  refine congrArg (V m c main_v1) (funext fun a => Fin.ext ?_)
  have hu : u.val = 0 := by omega
  match a with
  | ⟨0, _⟩ => show win0_1.index t (0 : Fin 3) * 1 + 1 * u.val = t.val / 2; omega
  | ⟨1, _⟩ => show win0_1.index t (1 : Fin 3) * 1024 + 1 * k.val = (t.val % 2) * 1024 + k.val; omega
  | ⟨2, _⟩ => show win0_1.index t (2 : Fin 3) * 64 + 1 * e.val = e.val; omega

/-- The value block at point t is rows 1024·(t % 2) … of head t / 2's slab. -/
theorem vblk_apply (c : Dev nD) (t : Fin cfg0.N) (u : Fin 1) (k : Fin 1024) (e : Fin 64) :
    vblk m c t (ix3 u k e) = varr m c (ix3 (⟨t.val / 2, by have := t.isLt; have := N128; omega⟩ : Fin 64)
      (⟨(t.val % 2) * 1024 + k.val, by have := k.isLt; have := Nat.mod_lt t.val (by decide : 2 > 0); omega⟩ : Fin 2048) e) := by
  obtain ⟨-, -, -, -, -, -, e0, e1, e2, -⟩ := idx_facts t
  show V m c main_v2 (((cfg0.win 2).blk t).view.emb (ix3 u k e)) = V m c main_v2 _
  refine congrArg (V m c main_v2) (funext fun a => Fin.ext ?_)
  have hu : u.val = 0 := by omega
  match a with
  | ⟨0, _⟩ => show win0_2.index t (0 : Fin 3) * 1 + 1 * u.val = t.val / 2; omega
  | ⟨1, _⟩ => show win0_2.index t (1 : Fin 3) * 1024 + 1 * k.val = (t.val % 2) * 1024 + k.val; omega
  | ⟨2, _⟩ => show win0_2.index t (2 : Fin 3) * 64 + 1 * e.val = e.val; omega

/-- The mask block at point t is columns 1024·(t % 2) … of batch t / 32's mask. -/
theorem mblk_apply (c : Dev nD) (t : Fin cfg0.N) (u : Fin 1) (q : Fin 2048) (k : Fin 1024) :
    mblk m c t (ix3 u q k) = marr m c (ix3 (⟨t.val / 32, by have := t.isLt; have := N128; omega⟩ : Fin 4) q
      (⟨(t.val % 2) * 1024 + k.val, by have := k.isLt; have := Nat.mod_lt t.val (by decide : 2 > 0); omega⟩ : Fin 2048)) := by
  obtain ⟨-, -, -, -, -, -, -, -, -, e0, e1, e2, -⟩ := idx_facts t
  show V m c main_v4 (((cfg0.win 3).blk t).view.emb (ix3 u q k)) = V m c main_v4 _
  refine congrArg (V m c main_v4) (funext fun a => Fin.ext ?_)
  have hu : u.val = 0 := by omega
  match a with
  | ⟨0, _⟩ => show win0_3.index t (0 : Fin 3) * 1 + 1 * u.val = t.val / 32; omega
  | ⟨1, _⟩ => show win0_3.index t (1 : Fin 3) * 2048 + 1 * q.val = q.val; omega
  | ⟨2, _⟩ => show win0_3.index t (2 : Fin 3) * 1024 + 1 * k.val = (t.val % 2) * 1024 + k.val; omega

/-! ## The arrays the region finds, from the argument arrays -/

/-- The argument arrays, at their literal types. -/
abbrev X0 (c : Dev nD) : Vec F S4x16x2048x64 .f32 := m ((c : Thread nD τ).loc main_arg0)
abbrev X1 (c : Dev nD) : Vec F S4x16x2048x64 .f32 := m ((c : Thread nD τ).loc main_arg1)
abbrev X2 (c : Dev nD) : Vec F S4x16x2048x64 .f32 := m ((c : Thread nD τ).loc main_arg2)
abbrev X3 (c : Dev nD) : Vec F S4x1x2048x2048 .i1 := m ((c : Thread nD τ).loc main_arg3)

/-- The query, key and value slabs are the [4, 16, 2048, 64] arguments with batch and head merged. -/
theorem qarr_eq (c : Dev nD) : qarr m c = shapeCast S64x2048x64 (X0 m c) shapeCasts_S4x16x2048x64_S64x2048x64 := by
  show StableHlo.after hostOps0 (fun b => m (c, b)) (Proc.devRef .tc main_v0) = _
  after_results
  rfl
theorem karr_eq (c : Dev nD) : karr m c = shapeCast S64x2048x64 (X1 m c) shapeCasts_S4x16x2048x64_S64x2048x64 := by
  show StableHlo.after hostOps0 (fun b => m (c, b)) (Proc.devRef .tc main_v1) = _
  after_results
  rfl
theorem varr_eq (c : Dev nD) : varr m c = shapeCast S64x2048x64 (X2 m c) shapeCasts_S4x16x2048x64_S64x2048x64 := by
  show StableHlo.after hostOps0 (fun b => m (c, b)) (Proc.devRef .tc main_v2) = _
  after_results
  rfl
/-- The mask the region finds is the argument mask with its unit axis dropped, each bit widened to a word. -/
theorem marr_eq (c : Dev nD) : marr m c = extui 32 (shapeCast S4x2048x2048 (X3 m c) shapeCasts_S4x1x2048x2048_S4x2048x2048) natLt_1_32 := by
  show StableHlo.after hostOps0 (fun b => m (c, b)) (Proc.devRef .tc main_v4) = _
  after_results
  rfl

/-- Merging batch and head: the slab entry (p, q, e) is the argument's entry (p / 16, p % 16, q, e). -/
theorem merged_apply {α : Type} (x : S4x16x2048x64.Idx → α) (p : Fin 64) (q : Fin 2048) (e : Fin 64) :
    shapeCast S64x2048x64 x shapeCasts_S4x16x2048x64_S64x2048x64 (ix3 p q e)
      = x (ix4 (⟨p.val / 16, by have := p.isLt; omega⟩ : Fin 4) (⟨p.val % 16, Nat.mod_lt _ (by decide)⟩ : Fin 16) q e) :=
  shapeCast_apply x _ _ _ (by
    rw [Shape.rowMajor_val_four, Shape.rowMajor_val_three]
    show ((p.val / 16 * 16 + p.val % 16) * 2048 + q.val) * 64 + e.val = (p.val * 2048 + q.val) * 64 + e.val
    have := Nat.div_add_mod p.val 16
    have h : p.val / 16 * 16 + p.val % 16 = p.val := by omega
    rw [h])

/-- Dropping the mask's unit axis: entry (b, q, k) is the argument's entry (b, 0, q, k). -/
theorem dropped_apply {α : Type} (x : S4x1x2048x2048.Idx → α) (b : Fin 4) (q : Fin 2048) (k : Fin 2048) :
    shapeCast S4x2048x2048 x shapeCasts_S4x1x2048x2048_S4x2048x2048 (ix3 b q k) = x (ix4 b (0 : Fin 1) q k) :=
  shapeCast_apply x _ _ _ (by
    rw [Shape.rowMajor_val_four, Shape.rowMajor_val_three]
    show ((b.val * 1 + 0) * 2048 + q.val) * 2048 + k.val = (b.val * 2048 + q.val) * 2048 + k.val
    omega)

/-! ## The blocks at a point, from the argument arrays -/

/-- The batch and the head point t works on, and the key row its key tile's row k is. -/
def bOf (t : Fin cfg0.N) : Fin 4 := ⟨t.val / 32, by have := t.isLt; have := N128; omega⟩
def hOf (t : Fin cfg0.N) : Fin 16 := ⟨t.val / 2 % 16, Nat.mod_lt _ (by decide)⟩
def keyOf (t : Fin cfg0.N) (k : Fin 1024) : Fin 2048 :=
  ⟨(t.val % 2) * 1024 + k.val, by have := k.isLt; have := Nat.mod_lt t.val (by decide : 2 > 0); omega⟩

theorem qblk_arg (c : Dev nD) (t : Fin cfg0.N) (u : Fin 1) (q : Fin 2048) (e : Fin 64) :
    qblk m c t (ix3 u q e) = X0 m c (ix4 (bOf t) (hOf t) q e) := by
  rw [qblk_apply, qarr_eq, merged_apply]
  exact congrArg (X0 m c) (funext fun a => Fin.ext (by
    match a with
    | ⟨0, _⟩ => show t.val / 2 / 16 = t.val / 32; omega
    | ⟨1, _⟩ => rfl
    | ⟨2, _⟩ => rfl
    | ⟨3, _⟩ => rfl))

theorem kblk_arg (c : Dev nD) (t : Fin cfg0.N) (u : Fin 1) (k : Fin 1024) (e : Fin 64) :
    kblk m c t (ix3 u k e) = X1 m c (ix4 (bOf t) (hOf t) (keyOf t k) e) := by
  rw [kblk_apply, karr_eq, merged_apply]
  exact congrArg (X1 m c) (funext fun a => Fin.ext (by
    match a with
    | ⟨0, _⟩ => show t.val / 2 / 16 = t.val / 32; omega
    | ⟨1, _⟩ => rfl
    | ⟨2, _⟩ => rfl
    | ⟨3, _⟩ => rfl))

theorem vblk_arg (c : Dev nD) (t : Fin cfg0.N) (u : Fin 1) (k : Fin 1024) (e : Fin 64) :
    vblk m c t (ix3 u k e) = X2 m c (ix4 (bOf t) (hOf t) (keyOf t k) e) := by
  rw [vblk_apply, varr_eq, merged_apply]
  exact congrArg (X2 m c) (funext fun a => Fin.ext (by
    match a with
    | ⟨0, _⟩ => show t.val / 2 / 16 = t.val / 32; omega
    | ⟨1, _⟩ => rfl
    | ⟨2, _⟩ => rfl
    | ⟨3, _⟩ => rfl))

theorem mblk_arg (c : Dev nD) (t : Fin cfg0.N) (u : Fin 1) (q : Fin 2048) (k : Fin 1024) :
    mblk m c t (ix3 u q k) = (X3 m c (ix4 (bOf t) (0 : Fin 1) q (keyOf t k))).setWidth 32 := by
  rw [mblk_apply, marr_eq]
  show (shapeCast S4x2048x2048 (X3 m c) shapeCasts_S4x1x2048x2048_S4x2048x2048 _).setWidth 32 = _
  rw [dropped_apply]
  rfl

end Cert.KBlocks

end
-- ==== Proof.KOut.lean ====
/-
  What the accumulator and the output block hold after a grid point, as values of the blocks the point was handed.
  After an even point (a head's first key tile) the accumulator is that tile's product added to zero; after the
  odd point that follows (the head's last key tile) the output block is the row-wise log-softmax of the first
  tile's product plus the last tile's product.
-/
import proofs.«151982_j18391049961538_1_alg».proof.Proof.KPieces
import proofs.«151982_j18391049961538_1_alg».proof.Proof.KBlocks

set_option maxRecDepth 16384

noncomputable section

open Idealize.ShloMosaic Idealize.ShloMosaic.TcCoe Idealize.SL.Sem Idealize.ShloMosaic.ValueIdx
open Idealize.ShloMosaic.Pipeline (Dat)

namespace Cert.KOut

open Cert.KernelIdeal Cert.KernelIdeal.Gen Cert.KBlocks

variable {F : FTy → Type} [FloatOps F]
variable (m : (ℓ : Loc nD τ sig) → Buf (Elt F) ℓ)

/-- The point before t. -/
def prev (t : Fin cfg0.N) : Fin cfg0.N := ⟨t.val - 1, Nat.lt_of_le_of_lt (Nat.sub_le _ _) t.isLt⟩

/-- After a head's first key tile the accumulator holds that tile's product added to the zero block. -/
theorem scratch_even (c : Dev nD) (t : Fin cfg0.N) (h0 : t.val % 2 = 0) :
    (outsAt0 m c t.val t.isLt).2
      = k0_pay3 (qblk m c t) (kblk m c t) (mblk m c t) (vblk m c t) (k0_pay2 (F := F)) := by
  have h1 : ¬ t.val % 2 = 1 := by omega
  rw [outsAt0_A m c t h0 h1]
  dsimp only
  exact KPieces.sout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a head's last key tile the output block is the log-softmax of the two tiles' products added up. -/
theorem out_odd (c : Dev nD) (t : Fin cfg0.N) (h1 : t.val % 2 = 1) :
    (outsAt0 m c t.val t.isLt).1
      = k0_pay1 (k0_pay3 (qblk m c t) (kblk m c t) (mblk m c t) (vblk m c t)
          (k0_pay3 (qblk m c (prev t)) (kblk m c (prev t)) (mblk m c (prev t)) (vblk m c (prev t)) (k0_pay2 (F := F)))) := by
  have h0 : ¬ t.val % 2 = 0 := by omega
  rw [outsAt0_B m c t h0 h1]
  dsimp only
  refine (KPieces.out_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans ?_
  have e := scratch_even m c (prev t) (by show (t.val - 1) % 2 = 0; omega)
  exact congrArg (fun s => k0_pay1 (k0_pay3 (qblk m c t) (kblk m c t) (mblk m c t) (vblk m c t) s)) e

end Cert.KOut

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KPay.lean ====
/-
  Each value the kernel body stores, read at an index, on the extended reals.

  The body stores three values. The first resets the accumulator block: it is zero everywhere. The second adds to
  the accumulator block, at row q and column d, the sum over the 1024 keys of the block of (masked score of query q
  and key k) times (value row k at column d); the score is the fill where the mask word is nonzero, else the dot
  product of the query row and the key row over the 64 features, times one eighth. The third is the log-softmax of
  each accumulated row of 64: the entry minus the row's maximum, minus the logarithm of the row's sum of exponentials
  of such differences.

  Every operation that is not elementwise is read at explicit coordinates by one small statement: the casts that drop
  or add a leading unit axis, the transpose of the key block, the two matrix products into a zero accumulator, the
  row maximum, the row sum, and the column of per-row values broadcast back along the row.
-/
import proofs.«151982_j18391049961538_1_alg».proof.Proof.Gen.KernelIdeal.Skeleton
import proofs.«151982_j18391049961538_1_alg».proof.Proof.Spec
import proofs.«151982_j18391049961538_1_alg».proof.Proof.LibDot
import proofs.«151982_j18391049961538_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KPay

open Cert.KernelIdeal Cert.KernelIdeal.Gen Idealize.ShloMosaic Idealize.ShloMosaic.ValueIdx

/-! ## The reset value -/

/-- The value the accumulator block is reset to is zero at every entry. -/
theorem pay2_apply (q : Fin 2048) (d : Fin 64) : k0_pay2 (F := Ideal) (ix2 q d) = 0 := by
  unfold k0_pay2
  show shapeCast S2048x64 (broadcast S2048x64 (Scalar.ofBits (F := Ideal) .f32 0x00000000#32)) shapeCasts_S2048x64_S2048x64 (ix2 q d) = 0
  rw [shapeCast_self]
  exact Cert.Spec.ofBits_zero

/-! ## A row's maximum, and a column of per-row values broadcast along the rows -/

/-- The maximum along the last axis of an [a, b] matrix, read at row p: the fold of max, from the accumulator's
    value, over the entries of row p. -/
theorem multiReduction_max_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun e => src (ix2 p e)) := by
  refine (Ideal.multiReduction_maximumf_single src acc h hφ hacc (ix1 p)).trans ?_
  have hf : (src ∘ h.lift (ix1 p)) = fun e : Fin b => src (ix2 p e) := by
    funext k
    refine congrArg src (funext fun ax => Fin.ext ?_)
    match ax with
    | ⟨0, _⟩ => rfl
    | ⟨1, _⟩ => rfl
  rw [hf]
  rfl

/-- A vector of per-row values cast to a column and broadcast along the rows reads, at (p, c), the value of row p. -/
theorem keep_apply {a b : ℕ} (x : FVec Ideal ⟨1, ![a]⟩ .f32) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- The same with the logarithm taken on the column. -/
theorem keep_log_apply {a b : ℕ} (x : FVec Ideal ⟨1, ![a]⟩ .f32) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (log (shapeCast ⟨2, ![a, 1]⟩ x h)) h' (ix2 p c) = Ideal.log (x (ix1 p)) :=
  (broadcastTo_a1_ab_apply _ h' p c).trans (congrArg Ideal.log (shapeCast_a_a1_apply x h p 0))

/-! ## The log-softmax of the accumulated rows -/

/-- The rows less their maxima. -/
def shifted (v31 : Vec Ideal S2048x64 .f32) : FVec Ideal S2048x64 .f32 :=
  subf v31 (broadcastTo S2048x64 (shapeCast S2048x1
    (maximumf (broadcast S2048 (Scalar.ofBits (F := Ideal) .f32 0xFF800000#32))
      (multiReduction .maximumf [1] S2048 v31 0xFF800000#32 reduces_S2048x64_S2048 (.inl rfl) rfl))
    shapeCasts_S2048_S2048x1) broadcasts_S2048x1_S2048x64)

/-- An entry of a row less the row's maximum. -/
theorem shifted_apply (v31 : Vec Ideal S2048x64 .f32) (q : Fin 2048) (e : Fin 64) :
    shifted v31 (ix2 q e) = v31 (ix2 q e) - Cert.Spec.rowMax (fun e => v31 (ix2 q e)) := by
  unfold shifted
  refine congrArg (fun t => v31 (ix2 q e) - t) ?_
  refine (keep_apply _ shapeCasts_S2048_S2048x1 broadcasts_S2048x1_S2048x64 q e).trans ?_
  unfold Cert.Spec.rowMax
  refine congrArg (fun t => max Cert.Spec.negInf t) ?_
  exact multiReduction_max_rows_apply v31 0xFF800000#32 reduces_S2048x64_S2048 (.inl rfl) rfl q

/-- The stored result is the log-softmax of the accumulated rows, built from the rows less their maxima. -/
theorem pay1_eq (v31 : Vec Ideal S2048x64 .f32) :
    k0_pay1 v31 = shapeCast S1x2048x64
      (subf (shifted v31) (broadcastTo S2048x64 (log (shapeCast S2048x1
        (multiReduction .add [1] S2048 (exp (shifted v31)) 0x00000000#32 reduces_S2048x64_S2048 (.inl rfl) rfl)
        shapeCasts_S2048_S2048x1)) broadcasts_S2048x1_S2048x64))
      shapeCasts_S2048x64_S1x2048x64 := rfl

/-- The stored result at (0, q, d): the log-softmax of row q at d. -/
theorem pay1_apply (v31 : Vec Ideal S2048x64 .f32) (q : Fin 2048) (d : Fin 64) :
    k0_pay1 v31 (ix3 (0 : Fin 1) q d) = Cert.Spec.lsm (fun e => v31 (ix2 q e)) d := by
  rw [pay1_eq]
  refine (shapeCast_ab_1ab_apply _ shapeCasts_S2048x64_S1x2048x64 (0 : Fin 1) q d).trans ?_
  unfold Cert.Spec.lsm
  refine congrArg₂ (fun s t => s - t) (shifted_apply v31 q d) ?_
  refine (keep_log_apply _ shapeCasts_S2048_S2048x1 broadcasts_S2048x1_S2048x64 q d).trans ?_
  refine congrArg Ideal.log ?_
  refine (multiReduction_add_rows_apply (exp (shifted v31)) 0x00000000#32 reduces_S2048x64_S2048 (.inl rfl) rfl q).trans ?_
  exact Finset.sum_congr rfl fun e _ => congrArg Ideal.exp (shifted_apply v31 q e)

/-! ## The accumulated product -/

/-- The dot products of the query rows with the key rows. -/
def dots (v3 : Vec Ideal S1x2048x64 .f32) (v6 : Vec Ideal S1x1024x64 .f32) : FVec Ideal S2048x1024 .f32 :=
  matmul dot_S2048x64_S64x1024_S2048x1024_1_0_0_1_n_n none
    (truncf .bf16 (shapeCast S2048x64 v3 shapeCasts_S1x2048x64_S2048x64) bitsLt_bf16_f32)
    (transpose S64x1024 [1, 0] (truncf .bf16 (shapeCast S1024x64 v6 shapeCasts_S1x1024x64_S1024x64) bitsLt_bf16_f32)
      transposes_S1024x64_p1_0_S64x1024)
    (constant S2048x1024 .f32 0x00000000#32)

/-- The dot product of query row q and key row k over the 64 features. -/
theorem dots_apply (v3 : Vec Ideal S1x2048x64 .f32) (v6 : Vec Ideal S1x1024x64 .f32) (q : Fin 2048) (k : Fin 1024) :
    dots v3 v6 (ix2 q k) = ∑ e : Fin 64, v3 (ix3 (0 : Fin 1) q e) * v6 (ix3 (0 : Fin 1) k e) := by
  unfold dots
  refine (Cert.LibDot.matmul_zero_at dot_S2048x64_S64x1024_S2048x1024_1_0_0_1_n_n rfl rfl rfl rfl rfl rfl none _ _ q k).trans ?_
  refine Finset.sum_congr rfl fun e _ => ?_
  refine congrArg₂ (fun s t : EReal => s * t) ?_ ?_
  · exact shapeCast_1ab_ab_apply v3 shapeCasts_S1x2048x64_S2048x64 q e
  · refine (transpose_ix2_apply _ transposes_S1024x64_p1_0_S64x1024 e k).trans ?_
    exact shapeCast_1ab_ab_apply v6 shapeCasts_S1x1024x64_S1024x64 k e

/-- The masked scores. -/
def scores (v3 : Vec Ideal S1x2048x64 .f32) (v6 : Vec Ideal S1x1024x64 .f32) (v13 : Vec Ideal S1x2048x1024 .i32) :
    FVec Ideal S2048x1024 .f32 :=
  select (cmpi .ne (shapeCast S2048x1024 v13 shapeCasts_S1x2048x1024_S2048x1024) (constantI S2048x1024 32 0#32))
    (broadcast S2048x1024 (Scalar.ofBits (F := Ideal) .f32 0xCE6E6B28#32))
    (mulf (dots v3 v6) (broadcast S2048x1024 (Scalar.ofBits (F := Ideal) .f32 0x3E000000#32)))

/-- The masked score of query q and key k. -/
theorem scores_apply (v3 : Vec Ideal S1x2048x64 .f32) (v6 : Vec Ideal S1x1024x64 .f32) (v13 : Vec Ideal S1x2048x1024 .i32)
    (q : Fin 2048) (k : Fin 1024) :
    scores v3 v6 v13 (ix2 q k)
      = Cert.Spec.score (Scalar.cmpi .ne (v13 (ix3 (0 : Fin 1) q k)) 0#32)
          (∑ e : Fin 64, v3 (ix3 (0 : Fin 1) q e) * v6 (ix3 (0 : Fin 1) k e)) := by
  unfold scores Cert.Spec.score
  show Scalar.select (Scalar.cmpi .ne (shapeCast S2048x1024 v13 shapeCasts_S1x2048x1024_S2048x1024 (ix2 q k)) 0#32)
      Cert.Spec.fill (dots v3 v6 (ix2 q k) * Cert.Spec.eighth) = _
  rw [dots_apply, shapeCast_1ab_ab_apply v13 shapeCasts_S1x2048x1024_S2048x1024 q k]

/-- The stored accumulator is the loaded one plus the product of the masked scores and the value block. -/
theorem pay3_eq (v3 : Vec Ideal S1x2048x64 .f32) (v6 : Vec Ideal S1x1024x64 .f32) (v13 : Vec Ideal S1x2048x1024 .i32)
    (v18 : Vec Ideal S1x1024x64 .f32) (v21 : Vec Ideal S2048x64 .f32) :
    k0_pay3 v3 v6 v13 v18 v21 = shapeCast S2048x64
      (addf v21 (matmul dot_S2048x1024_S1024x64_S2048x64_1_0_0_1_n_n none
        (truncf .bf16 (scores v3 v6 v13) bitsLt_bf16_f32)
        (truncf .bf16 (shapeCast S1024x64 v18 shapeCasts_S1x1024x64_S1024x64) bitsLt_bf16_f32)
        (constant S2048x64 .f32 0x00000000#32)))
      shapeCasts_S2048x64_S2048x64 := rfl

/-- The stored accumulator at (q, d): the loaded entry plus the sum over the block's keys of score times value. -/
theorem pay3_apply (v3 : Vec Ideal S1x2048x64 .f32) (v6 : Vec Ideal S1x1024x64 .f32) (v13 : Vec Ideal S1x2048x1024 .i32)
    (v18 : Vec Ideal S1x1024x64 .f32) (v21 : Vec Ideal S2048x64 .f32) (q : Fin 2048) (d : Fin 64) :
    k0_pay3 v3 v6 v13 v18 v21 (ix2 q d)
      = v21 (ix2 q d) + ∑ k : Fin 1024, Cert.Spec.score (Scalar.cmpi .ne (v13 (ix3 (0 : Fin 1) q k)) 0#32) (∑ e : Fin 64, v3 (ix3 (0 : Fin 1) q e) * v6 (ix3 (0 : Fin 1) k e)) * v18 (ix3 (0 : Fin 1) k d) := by
  rw [pay3_eq, shapeCast_self]
  refine congrArg (fun t => v21 (ix2 q d) + t) ?_
  refine (Cert.LibDot.matmul_zero_at dot_S2048x1024_S1024x64_S2048x64_1_0_0_1_n_n rfl rfl rfl rfl rfl rfl none _ _ q d).trans ?_
  refine Finset.sum_congr rfl fun k _ => ?_
  refine congrArg₂ (fun s t : EReal => s * t) (scores_apply v3 v6 v13 q k) ?_
  exact shapeCast_1ab_ab_apply v18 shapeCasts_S1x1024x64_S1024x64 k d

end Cert.KPay

end
-- ==== Proof.KFinal.lean ====
/-
  The kernel's result array is the specification.
  A head's last grid point writes back the row-wise log-softmax of the two key tiles' products added up; read through
  the blocks, the two sums over 1024 keys are the two halves of the sum over all 2048 keys, so the block is the
  specification's slab of that head; the heads' slabs cover the array; and the reshape after the region splits the
  merged batch–head axis back.
-/
import proofs.«151982_j18391049961538_1_alg».proof.Proof.KOut
import proofs.«151982_j18391049961538_1_alg».proof.Proof.KPay
import proofs.«151982_j18391049961538_1_alg».proof.Proof.Spec
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)
open Idealize.ShloMosaic.StableHlo

namespace Cert.KFinal

open Cert.KernelIdeal Cert.KernelIdeal.Gen Cert.KBlocks Cert.KOut

variable (m : (ℓ : Loc nD τ sig) → Buf (Elt Ideal) ℓ) (ρ : Dev nD → PrngReg)

/-- One key tile's product at (q, e), added to an accumulator: the terms of the tile's 1024 keys. -/
theorem tile_apply (c : Dev nD) (t : Fin cfg0.N) (acc : Vec Ideal S2048x64 .f32) (q : Fin 2048) (e : Fin 64) :
    k0_pay3 (qblk m c t) (kblk m c t) (mblk m c t) (vblk m c t) acc (ix2 q e)
      = acc (ix2 q e) + ∑ k : Fin 1024, Cert.Spec.term (X0 m c) (X1 m c) (X2 m c) (X3 m c) (bOf t) (hOf t) q e (keyOf t k) := by
  rw [Cert.KPay.pay3_apply]
  refine congrArg (fun s => acc (ix2 q e) + s) (Finset.sum_congr rfl fun k _ => ?_)
  unfold Cert.Spec.term
  rw [mblk_arg, Cert.Spec.ne_zero_setWidth, vblk_arg]
  refine congrArg (fun s => Cert.Spec.score _ s * _) (Finset.sum_congr rfl fun e' _ => ?_)
  rw [qblk_arg, kblk_arg]

/-- After a head's two key tiles the accumulator at (q, e) is the sum over all 2048 keys: the first tile's keys are
    the first half, the last tile's keys the second half. -/
theorem acc_apply (c : Dev nD) (t : Fin cfg0.N) (h1 : t.val % 2 = 1) (q : Fin 2048) (e : Fin 64) :
    k0_pay3 (qblk m c t) (kblk m c t) (mblk m c t) (vblk m c t)
        (k0_pay3 (qblk m c (prev t)) (kblk m c (prev t)) (mblk m c (prev t)) (vblk m c (prev t)) (k0_pay2 (F := Ideal))) (ix2 q e)
      = Cert.Spec.att (X0 m c) (X1 m c) (X2 m c) (X3 m c) (bOf t) (hOf t) q e := by
  rw [tile_apply, tile_apply, Cert.KPay.pay2_apply, zero_add]
  unfold Cert.Spec.att
  rw [Cert.Spec.sum_halves]
  have hb : bOf (prev t) = bOf t := Fin.ext (by show (t.val - 1) / 32 = t.val / 32; omega)
  have hh : hOf (prev t) = hOf t := Fin.ext (by show (t.val - 1) / 2 % 16 = t.val / 2 % 16; omega)
  rw [hb, hh]
  refine congrArg₂ (fun a b : EReal => a + b) (Finset.sum_congr rfl fun k _ => ?_) (Finset.sum_congr rfl fun k _ => ?_)
  · exact congrArg (Cert.Spec.term (X0 m c) (X1 m c) (X2 m c) (X3 m c) (bOf t) (hOf t) q e)
      (Fin.ext (by show (t.val - 1) % 2 * 1024 + k.val = k.val; omega))
  · exact congrArg (Cert.Spec.term (X0 m c) (X1 m c) (X2 m c) (X3 m c) (bOf t) (hOf t) q e)
      (Fin.ext (by show t.val % 2 * 1024 + k.val = 1024 + k.val; omega))

/-- The output block after a head's last key tile, at (0, q, d): the log-softmax of the head's accumulated row q. -/
theorem block_apply (c : Dev nD) (t : Fin cfg0.N) (h1 : t.val % 2 = 1) (u : Fin 1) (q : Fin 2048) (d : Fin 64) :
    (outsAt0 m c t.val t.isLt).1 (ix3 u q d)
      = Cert.Spec.lsm (fun e => Cert.Spec.att (X0 m c) (X1 m c) (X2 m c) (X3 m c) (bOf t) (hOf t) q e) d := by
  rw [out_odd m c t h1]
  obtain rfl : u = 0 := Subsingleton.elim _ _
  rw [Cert.KPay.pay1_apply]
  exact congrArg (fun r => Cert.Spec.lsm r d) (funext fun e => acc_apply m c t h1 q e)

/-- The specification over the merged batch–head axis: slab p is batch p / 16, head p % 16. -/
def G3 (c : Dev nD) : Vec Ideal S64x2048x64 .f32 := fun j =>
  Cert.Spec.G (X0 m c) (X1 m c) (X2 m c) (X3 m c)
    (ix4 (⟨(j 0).val / 16, by have : (j 0).val < 64 := (j 0).isLt; omega⟩ : Fin 4)
      (⟨(j 0).val % 16, Nat.mod_lt _ (by decide)⟩ : Fin 16) (j 1) (j 2))

/-- What a head's last point writes back is the head's slab of the specification. -/
theorem flushed_eq (c : Dev nD) (t : Fin cfg0.N) (hf : (cfg0.win 4).flush t = true) :
    (dats m 0 c).flushed 4 t = ((cfg0.win 4).blk t).view.read (Elt Ideal) (G3 m c) := by
  have h1 : t.val % 2 = 1 := (flush0_4 t).mp hf
  obtain ⟨-, -, -, -, -, -, -, -, -, -, -, -, e0, e1, e2⟩ := idx_facts t
  show (cfg0.win 4).cut (grid0.coords t) ((dats m 0 c).after 4 t) = _
  rw [after0_4]
  funext y
  show (outsAt0 m c t.val t.isLt).1 y = G3 m c (((cfg0.win 4).blk t).view.emb y)
  obtain ⟨u, q, d, rfl⟩ : ∃ (u : Fin 1) (q : Fin 2048) (d : Fin 64), y = ix3 u q d := ⟨y 0, y 1, y 2, eq_ix3 y⟩
  rw [block_apply m c t h1 u q d]
  have hu : u.val = 0 := by omega
  have hemb : ((cfg0.win 4).blk t).view.emb (ix3 u q d)
      = ix3 (⟨t.val / 2, by have := t.isLt; have := N128; omega⟩ : Fin 64) q d := funext fun a => Fin.ext (by
    match a with
    | ⟨0, _⟩ => show win0_4.index t (0 : Fin 3) * 1 + 1 * u.val = t.val / 2; omega
    | ⟨1, _⟩ => show win0_4.index t (1 : Fin 3) * 2048 + 1 * q.val = q.val; omega
    | ⟨2, _⟩ => show win0_4.index t (2 : Fin 3) * 64 + 1 * d.val = d.val; omega)
  rw [hemb]
  have hb : bOf t = (⟨t.val / 2 / 16, by have := t.isLt; have := N128; omega⟩ : Fin 4) :=
    Fin.ext (by show t.val / 32 = t.val / 2 / 16; omega)
  rw [hb]
  rfl

/-- Every entry of the array lies in the block some head's last point writes back. -/
theorem cover (i : S64x2048x64.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 64 := (i 2).isLt
  have hlt : 2 * (i 0).val + 1 < cfg0.N := by rw [N128]; omega
  obtain ⟨-, -, -, -, -, -, -, -, -, -, -, -, e0, e1, e2⟩ := idx_facts ⟨2 * (i 0).val + 1, hlt⟩
  have ht : (2 * (i 0).val + 1) / 2 = (i 0).val := by omega
  refine ⟨⟨2 * (i 0).val + 1, hlt⟩, (flush0_4 _).mpr (by show (2 * (i 0).val + 1) % 2 = 1; omega), ?_⟩
  show i ∈ ((View.whole main_v5).slice (win0_4.rect ⟨2 * (i 0).val + 1, hlt⟩)).set
  rw [View.set_slice_whole, Rect.mem_set_unit]
  intro a
  match a with
  | ⟨0, _⟩ =>
    show win0_4.index ⟨2 * (i 0).val + 1, hlt⟩ (0 : Fin 3) * 1 ≤ (i 0).val ∧ (i 0).val < win0_4.index ⟨2 * (i 0).val + 1, hlt⟩ (0 : Fin 3) * 1 + 1
    rw [e0]; show (2 * (i 0).val + 1) / 2 * 1 ≤ (i 0).val ∧ (i 0).val < (2 * (i 0).val + 1) / 2 * 1 + 1
    omega
  | ⟨1, _⟩ =>
    show win0_4.index ⟨2 * (i 0).val + 1, hlt⟩ (1 : Fin 3) * 2048 ≤ (i 1).val ∧ (i 1).val < win0_4.index ⟨2 * (i 0).val + 1, hlt⟩ (1 : Fin 3) * 2048 + 2048
    rw [e1]; omega
  | ⟨2, _⟩ =>
    show win0_4.index ⟨2 * (i 0).val + 1, hlt⟩ (2 : Fin 3) * 64 ≤ (i 2).val ∧ (i 2).val < win0_4.index ⟨2 * (i 0).val + 1, hlt⟩ (2 : Fin 3) * 64 + 64
    rw [e2]; omega

/-- The result array of the region ends at the specification over the merged axis. -/
theorem final (c : Dev nD) : (dats m 0 c).arrAt 4 cfg0.N = G3 m c :=
  (dats m 0 c).arrAt_eq_of_cover 4 (G3 m c) (flushed_eq m c) (fun i => cover i)

/-- Splitting the merged axis back: entry (b, h, q, d) is the slab entry (16·b + h, q, d). -/
theorem split_apply {α : Type} (x : S64x2048x64.Idx → α) (i : S4x16x2048x64.Idx) :
    shapeCast S4x16x2048x64 x shapeCasts_S64x2048x64_S4x16x2048x64 i
      = x (ix3 (⟨(i 0).val * 16 + (i 1).val, by
          have h0 : (i 0).val < 4 := (i 0).isLt
          have h1 : (i 1).val < 16 := (i 1).isLt
          omega⟩ : Fin 64) (i 2) (i 3)) :=
  shapeCast_apply x _ _ _ (by
    rw [Shape.rowMajor_val_three, Shape.rowMajor_val_four]
    rfl)

/-- The program's result: the region's array with its merged axis split back is the specification. -/
theorem tail_eq (c : Dev nD) :
    Pipeline.afterTail₀ cfgs (dats m) 0 (V0 m) [hostOps1] c main_v6 = Cert.Spec.G (X0 m c) (X1 m c) (X2 m c) (X3 m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = G3 m c := (Pipeline.withArrays_arr spec0 launch0.win.arr_inj c _ _ 4).trans (final m c)
  funext i
  show shapeCast S4x16x2048x64 (Pipeline.withArrays (cfgs 0).spec c (V0 m c) (fun w => (dats m 0 c).arrAt w (cfgs 0).N)
      (Proc.devRef .tc main_v5)) shapeCasts_S64x2048x64_S4x16x2048x64 i = _
  rw [hw, split_apply]
  have h0 : (i 0).val < 4 := (i 0).isLt
  have h1 : (i 1).val < 16 := (i 1).isLt
  show Cert.Spec.G (X0 m c) (X1 m c) (X2 m c) (X3 m c) _ = Cert.Spec.G (X0 m c) (X1 m c) (X2 m c) (X3 m c) i
  refine congrArg (Cert.Spec.G (X0 m c) (X1 m c) (X2 m c) (X3 m c)) (funext fun a => Fin.ext ?_)
  match a with
  | ⟨0, _⟩ => show ((i 0).val * 16 + (i 1).val) / 16 = (i 0).val; omega
  | ⟨1, _⟩ => show ((i 0).val * 16 + (i 1).val) % 16 = (i 1).val; omega
  | ⟨2, _⟩ => rfl
  | ⟨3, _⟩ => rfl

/-- The run, read: the result at the specification of the argument arrays, the arguments unchanged. -/
theorem run : θ_run defs (onTc (τ := τ) (main (F := Ideal))) ⟨m, fun _ => 0, ρ⟩ fun r => ∀ c : Dev nD,
      r.2.mem ((c : Thread nD τ).loc main_v6) = Cert.Spec.G (X0 m c) (X1 m c) (X2 m c) (X3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v6 (Pipeline.mem_restRefs_of main_v6 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KFinal

end
-- ==== Proof.lean ====
/-
  Masked-score attention with a row-wise log-softmax, tiled over two key tiles per head, against the plain
  einsum reference: the two programs compute one function of the four argument arrays on the extended reals.

  The kernel works on the 64 merged batch–head slabs, two grid points per slab. At a slab's first point it zeroes an
  accumulator and adds the first 1024 keys' masked scores times their values; at its second point it adds the last
  1024 keys' and writes back the log-softmax of each accumulated row. The reference takes the sum over all 2048
  keys at once. The two agree because
  • a score scaled by 0.125 is the score divided by the square root of 64, on every extended real;
  • a mask bit widened to a word and compared with zero is the bit the reference selects on;
  • the sum over 2048 keys is the sum of its two halves (addition of extended reals is commutative and associative),
    and zero plus a sum is the sum;
  • the row maximum and the row sum of exponentials are the same folds on both sides.
  No step needs the inputs to be finite, so the precondition is never opened.

  The three frames: the two kernels' are their frame runs; the reference's is its run with the result dropped.
  The kernel's idealization rewrote nothing, so its conjunct is trivial.
-/
import proofs.«151982_j18391049961538_1_alg».proof.Defs
import proofs.«151982_j18391049961538_1_alg».proof.Proof.Gen.Kernel
import proofs.«151982_j18391049961538_1_alg».proof.Proof.Gen.Kernel.Skeleton
import proofs.«151982_j18391049961538_1_alg».proof.Proof.Gen.Kernel.Launch
import proofs.«151982_j18391049961538_1_alg».proof.Proof.Gen.Kernel.Points
import proofs.«151982_j18391049961538_1_alg».proof.Proof.Gen.Kernel.Frame
import proofs.«151982_j18391049961538_1_alg».proof.Proof.Gen.KernelIdeal
import proofs.«151982_j18391049961538_1_alg».proof.Proof.Gen.KernelIdeal.Skeleton
import proofs.«151982_j18391049961538_1_alg».proof.Proof.Gen.KernelIdeal.Launch
import proofs.«151982_j18391049961538_1_alg».proof.Proof.Gen.KernelIdeal.Points
import proofs.«151982_j18391049961538_1_alg».proof.Proof.Gen.KernelIdeal.Frame
import proofs.«151982_j18391049961538_1_alg».proof.Proof.Gen.ReferenceIdeal
import proofs.«151982_j18391049961538_1_alg».proof.Proof.Gen.Pre_finite_inputs
import proofs.«151982_j18391049961538_1_alg».proof.Proof.RefRun
import proofs.«151982_j18391049961538_1_alg».proof.Proof.RefRead
import proofs.«151982_j18391049961538_1_alg».proof.Proof.RefG
import proofs.«151982_j18391049961538_1_alg».proof.Proof.KFinal
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- Both programs end with the result array at the specification of the argument arrays, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (Cert.KBlocks.X0 m c) (Cert.KBlocks.X1 m c) (Cert.KBlocks.X2 m c) (Cert.KBlocks.X3 m c),
    Cert.KFinal.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.val_main_v6_eq, Cert.RefG.ref_eq_G, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
